-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x256 : Shape := ⟨2, ![4096, 256]⟩
abbrev S256 : Shape := ⟨1, ![256]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  main_v18

def fn {F : FTy → Type} [FloatOps F] (main_arg0 : FVec F S8x2048x4096 .f32) (main_arg1 : FVec F S4096x256 .f32) (main_arg2 : FVec F S256 .f32) (main_arg3 : FVec F S4096x256 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_v13 main_v16
-- ==== Kernel.lean ====
abbrev S8x2048x4096 : Shape := ⟨3, ![8, 2048, 4096]⟩
abbrev S4096x256 : Shape := ⟨2, ![4096, 256]⟩
abbrev S256 : Shape := ⟨1, ![256]⟩
abbrev S1x256 : Shape := ⟨2, ![1, 256]⟩
abbrev S4096x4096 : Shape := ⟨2, ![4096, 4096]⟩
abbrev S1024x256 : Shape := ⟨2, ![1024, 256]⟩
abbrev S1024x1024 : Shape := ⟨2, ![1024, 1024]⟩
abbrev S16384x4096 : Shape := ⟨2, ![16384, 4096]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x4096, .bf16⟩
  | .hbm, ⟨6, _⟩ => ⟨S16384x4096, .f32⟩
  | .hbm, ⟨7, _⟩ => ⟨S16384x4096, .f32⟩
  | .hbm, ⟨8, _⟩ => ⟨S8x2048x4096, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1024x256, .f32⟩
  | .local _ .vmem, ⟨4, _⟩ => ⟨S1024x256, .f32⟩
  | .local _ .vmem, ⟨5, _⟩ => ⟨S1024x1024, .bf16⟩
  | .local _ .vmem, ⟨6, _⟩ => ⟨S1024x1024, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S8x2048x4096_S16384x4096 : S8x2048x4096.ShapeCasts S16384x4096
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x4096_S8x2048x4096 : S16384x4096.ShapeCasts S8x2048x4096
  dot_S1024x256_S1024x256_S1024x1024_1_1_0_0_n_n_wf : DotDims.WF S1024x256 S1024x256 S1024x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x4096.size a
  hwx1_2 : ∀ i : grid1.Coords, EltTy.bits .f32 = 32 ∨ (Rect.block (s := S16384x4096) S1024x1024.size (cc1_transform_2 i) (hinb1_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x256 : Shape := ⟨2, ![4096, 256]⟩
abbrev S256 : Shape := ⟨1, ![256]⟩
abbrev S1x256 : Shape := ⟨2, ![1, 256]⟩
abbrev S256x4096 : Shape := ⟨2, ![256, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S256x4096, .f32⟩
  | .hbm, ⟨8, _⟩ => ⟨S4096x4096, .f32⟩
  | .hbm, ⟨9, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S4096x256_S256x4096_1_0 : S4096x256.Transposes [1, 0] S256x4096
  dot_S4096x256_S256x4096_S4096x4096_1_0_0_1_n_n_wf : DotDims.WF S4096x256 S256x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KFrame0.lean ====
/-
  The first pallas_call (the low-rank reconstruction W = (U·S) Vᵀ, one 1024×1024 block of W per grid point) as a
  pipeline region entered at arbitrary buffer contents `V`: the blocks of U, S and V a point reads, what the body's
  one store leaves in the output block, the body's triple, and the pipeline's proof data with its body obligation.
  The body reads three input blocks and overwrites the whole output block, so nothing is carried between points.
-/
import proofs.«162678_j19954418057631_1_alg».proof.Proof.Gen.Kernel.Launch
import proofs.«162678_j19954418057631_1_alg».proof.Proof.Gen.Kernel.Skeleton
import proofs.«162678_j19954418057631_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch. One lemma per input window: the rows of U, the row S, the rows of V. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store is of a whole block -/

abbrev rU : Rect S1024x256 := Rect.unit (s := S1024x256) ![0, 0] S1024x256.size inb_S1024x256_S1024x256_0_0
abbrev rS : Rect S1x256 := Rect.unit (s := S1x256) ![0, 0] S1x256.size inb_S1x256_S1x256_0_0
abbrev rW : Rect S1024x1024 := Rect.unit (s := S1024x1024) ![0, 0] S1024x1024.size inb_S1024x1024_S1024x1024_0_0

/-- The output block after the body, from the three input blocks: the one whole-block store of the product. -/
def out0_3 (x0 : Vec F S1024x256 .f32) (x1 : Vec F S1x256 .f32) (x2 : Vec F S1024x256 .f32) : Vec F S1024x1024 .bf16 :=
  View.canon [⟨rW, k0_pay1 (View.ld x0 rU) (View.ld x1 rS) (View.ld x2 rU)⟩]

/-- The store is of the whole block, so it covers it. -/
theorem cover0_3 (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

/-! ## The body's triple -/

set_option maxHeartbeats 1000000 in
/-- On whole staging buffers, the inputs' at contents `x0`, `x1`, `x2` and the output's at anything, the body runs to
    the continuation with the inputs untouched and the output at `out0_3` of them. -/
theorem sound_kernel0 (c : Dev nD) (E : Set ℕ) (i : grid0.Coords)
    (arg2 : Memref sig .tc .vmem S1024x256 .f32) (harg2 : arg2.IsWhole) (arg3 : Memref sig .tc .vmem S1x256 .f32) (harg3 : arg3.IsWhole)
    (arg4 : Memref sig .tc .vmem S1024x256 .f32) (harg4 : arg4.IsWhole) (arg5 : Memref sig .tc .vmem S1024x1024 .bf16) (harg5 : arg5.IsWhole)
    (x0 : Vec F S1024x256 .f32) (x1 : Vec F S1x256 .f32) (x2 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__lowrank_kernel i arg2 harg2 arg3 harg3 arg4 harg4 arg5 harg5) K := by
  simp only [cc0__lowrank_kernel_eq_skeleton]; unfold cc0__lowrank_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point `t`
    each input's buffer still at its block and the output's at `out0_3` of the three input blocks; nothing carried
    between points (the invariant is the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame1.lean ====
/-
  The second pallas_call (out = X · Wᵀ, a 1024×1024 output block accumulated over eight 512-wide slices of the contracted
  axis) as a pipeline region entered at arbitrary buffer contents `V`. The accumulator is a scratch buffer the kernel
  keeps between grid points: reset at the first slice of a block, added to at every slice, and copied to the output
  block at the last slice. Its contents after each point are a fold over the points of the current block.
-/
import proofs.«162678_j19954418057631_1_alg».proof.Proof.Gen.Kernel.Launch
import proofs.«162678_j19954418057631_1_alg».proof.Proof.Gen.Kernel.Skeleton
import proofs.«162678_j19954418057631_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- "This is the first slice of the contracted axis" (the accumulator is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last slice" (the accumulator is copied to the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle; the output is idle, and not written back, exactly where the last-slice copy does not run. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's accesses: every load and store is of a whole block -/

abbrev rX : Rect S1024x512 := Rect.unit (s := S1024x512) ![0, 0] S1024x512.size inb_S1024x512_S1024x512_0_0
abbrev rA : Rect S1024x1024 := Rect.unit (s := S1024x1024) ![0, 0] S1024x1024.size inb_S1024x1024_S1024x1024_0_0
theorem hz2 : (![0, 0] : Fin 2 → Nat) = fun _ => 0 := by funext a; fin_cases a <;> rfl

/-- The scratch accumulator, a whole scoped buffer of the kernel's own. -/
abbrev scM1 : Memref sig .tc .vmem S1024x1024 .f32 := Memref.whole cc1_scratch0

/-! ## The accumulation -/

/-- What the scratch accumulator holds after the body at position `n`: the point's slice product added to the zero
    block at the first slice of an output block, and to what the point before left at the other slices. -/
def acc1 (c : Dev nD) : (n : ℕ) → n < cfg1.N → Vec F S1024x1024 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At the first slice of a block the accumulator restarts from zero. -/
theorem acc1_first (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact (if_pos h).trans rfl

/-- At any other slice it adds to what the point before left. -/
theorem acc1_next (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the scratch accumulator at the fold -/

/-- The core's scoped buffers that no window of this pipeline stages: the first pallas_call's seven staging buffers, each
    whole at some contents, and this kernel's scratch accumulator at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The accumulator's part can be exchanged under the seven other buffers. -/
theorem scoped1_mono (c : Dev nD) {S S' : sProp 𝕄} (h : S ⊢ S') : scoped1 (F := F) c S ⊢ scoped1 (F := F) c S' := by
  unfold scoped1
  iintro ⟨H1, H2, H3, H4, H5, H6, H7, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HS

/-- The accumulator's contents can be forgotten. -/
theorem scoped1_forget (c : Dev nD) (a : Vec F S1024x1024 .f32) :
    scoped1 (F := F) c (owns (c : Thread nD τ) scM1 fullShare a) ⊢ scoped1 (F := F) c iprop(∃ d, owns (c : Thread nD τ) scM1 fullShare d) :=
  scoped1_mono c (by iintro H; iexists a; iexact H)

/-- The region's plain invariant (every scoped buffer no window stages at some contents, and the generator register)
    with the scratch accumulator singled out as a memref owned at some contents. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; try rfl

/-- The invariant before position `n`: before the first point the plain one; afterwards the same with the scratch
    accumulator at what the point before left in it. -/
def PhiS1 (c : Dev nD) : (n : ℕ) → n ≤ cfg1.N → sProp 𝕄
  | 0, _ => Pipeline.ΦA spec1 c
  | n + 1, hn => iprop(scoped1 (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 (F := F) c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's buffer still at its block; the output block — stored only at the last slice, where it takes the
    accumulator — stated as the accumulator at every point (at the other points the window is idle and the statement
    is not consulted); the invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triples, one per control case -/

/-- Every index lies in the whole-block rectangle. -/
theorem mem_rA (y : S1024x1024.Idx) : y ∈ rA.set := by
  have h : ∀ (off : Fin 2 → Nat) (_ : off = fun _ => 0) (inb : ∀ a, off a + S1024x1024.size a ≤ S1024x1024.size a),
      y ∈ (Rect.unit (s := S1024x1024) off S1024x1024.size inb).set := by
    intro off h inb; subst h; show y ∈ (Rect.whole S1024x1024).set; rw [Rect.set_whole]; exact Finset.mem_univ y
  exact h _ hz2 _

/-- A list of stores whose last one is of the whole block covers the block. -/
theorem cover_rA (p0 : Vec F S1024x1024 .f32) (L : List (View.Piece (Elt F) S1024x1024 .f32)) (y : S1024x1024.Idx) :
    ∃ pc ∈ ((⟨rA, p0⟩ : View.Piece (Elt F) S1024x1024 .f32) :: L), y ∈ pc.1.set :=
  ⟨_, List.mem_cons_self .., mem_rA y⟩

set_option maxHeartbeats 2000000 in
/-- A middle slice (neither first nor last): the accumulator `a` becomes `a` plus the slice's product; the output block's
    buffer is not touched. -/
theorem sound_kernel1_mid (c : Dev nD) (E : Set ℕ) (i : grid1.Coords) (hc0 : ¬cond1_0 i) (hc1 : ¬cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (xi : Vec F S1024x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rA _ _), View.canon_cons_unit_zero hz2]
  simp only [View.readAt_eq_ld, View.ld_unit_zero (S := S1024x512) hz2, View.ld_unit_zero (S := S1024x1024) hz2]

set_option maxHeartbeats 2000000 in
/-- The first slice of an output block (and not the last): the accumulator, at anything, is reset to the zero block and
    then takes the slice's product; the output block's buffer is not touched. -/
theorem sound_kernel1_first (c : Dev nD) (E : Set ℕ) (i : grid1.Coords) (hc0 : cond1_0 i) (hc1 : ¬cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (xi : Vec F S1024x1024 .f32) (K : PUnit → sProp 𝕄) :
    iprop(owns (c : Thread nD τ) arg3 fullShare x0 ∗ owns (c : Thread nD τ) arg4 fullShare x1 ∗ owns (c : Thread nD τ) arg5 fullShare xi
        ∗ (∃ a, owns (c : Thread nD τ) arg6 fullShare a)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 k1_pay1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%a, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_rA _ _), View.canon_cons_unit_zero hz2]
  simp only [View.readAt_eq_ld, View.ld_unit_zero (S := S1024x512) hz2, View.ld_unit_zero (S := S1024x1024) hz2,
    View.readCov_unit_zero (S := S1024x1024) _ hz2]

set_option maxHeartbeats 2000000 in
/-- The last slice (and not the first): the accumulator `a` takes the slice's product and is copied to the output block's
    buffer, which held anything. -/
theorem sound_kernel1_last (c : Dev nD) (E : Set ℕ) (i : grid1.Coords) (hc0 : ¬cond1_0 i) (hc1 : cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (a : Vec F S1024x1024 .f32) (K : PUnit → sProp 𝕄) :
    iprop(owns (c : Thread nD τ) arg3 fullShare x0 ∗ owns (c : Thread nD τ) arg4 fullShare x1 ∗ (∃ xi, owns (c : Thread nD τ) arg5 fullShare xi)
        ∗ owns (c : Thread nD τ) arg6 fullShare a
        ∗ (iprop(owns (c : Thread nD τ) arg3 fullShare x0 ∗ owns (c : Thread nD τ) arg4 fullShare x1
            ∗ owns (c : Thread nD τ) arg5 fullShare (k1_pay2 x0 x1 a)
            ∗ owns (c : Thread nD τ) arg6 fullShare (k1_pay2 x0 x1 a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%xi, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_rA _ _), View.canon_cons_unit_zero hz2]
    simp only [View.readAt_eq_ld, View.ld_unit_zero (S := S1024x512) hz2, View.ld_unit_zero (S := S1024x1024) hz2,
      View.readCov_unit_zero (S := S1024x1024) _ hz2]
  iexists _; isplitr
  swap; · iexact H3
  ipureintro
  sl_unfold_words
  rw [View.read_writes_eq_canon _ _ _ (cover_rA _ _), View.canon_cons_unit_zero hz2]
  simp only [View.readAt_eq_ld, View.ld_unit_zero (S := S1024x512) hz2, View.ld_unit_zero (S := S1024x1024) hz2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point's slice number says which control case it is
    in; the invariant hands the body the accumulator at what the point before left (at anything before the first point)
    and takes it back at this point's fold; at a point that is not a last slice the output block's buffer passes through
    untouched, at a last slice it takes the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 512 := lt_of_lt_of_eq t.isLt (show cfg1.N = 512 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 2 t (idleAt1_2 t hc1) (noFlush1_2 t hc1)]
      rw [acc1_first V c t h0]
      have hΦ : (dat1 V c).Φ t.castSucc ⊢ iprop(scoped1 (F := F) c iprop(∃ d, owns (c : Thread nD τ) scM1 fullShare d) ∗ (∃ r, prngReg c r)) := by
        rw [PhiS1_castSucc V c t]
        by_cases hz : t.val = 0
        · rw [PhiS1_zero V c _ _ hz, PhiA1_eq]
        · rw [PhiS1_pos V c _ _ hz]
          iintro ⟨HS, Hg⟩
          isplitl [HS]
          · iapply (scoped1_forget (F := F) c (acc1 V c (t.val - 1) (by omega)))
            iexact HS
          iexact Hg
      iintro ⟨HΦ, Ho, ⟨%d0, H0⟩, ⟨%d1, H1⟩, ⟨%d2, H2⟩⟩
      ihave HΦ' := hΦ $$ HΦ
      unfold scoped1
      icases HΦ' with ⟨⟨A1, A2, A3, A4, A5, A6, A7, HS⟩, Hg⟩
      iapply (sound_kernel1_first c Set.univ (grid1.coords t) hc0 hc1 _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_next V c t h0, PhiS1_castSucc V c t, PhiS1_pos V c _ _ hz]
    unfold scoped1
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t h0]
      iintro ⟨⟨⟨A1, A2, A3, A4, A5, A6, A7, HS⟩, Hg⟩, Ho, ⟨%d0, H0⟩, ⟨%d1, H1⟩, ⟨%d2, H2⟩⟩
      iapply (sound_kernel1_last c Set.univ (grid1.coords t) hc0 hc1 _ _ _ _ _ _ _ _ (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨A1, A2, A3, A4, A5, A6, A7, HS⟩, Hg⟩, Ho, ⟨%d0, H0⟩, ⟨%d1, H1⟩, ⟨%d2, H2⟩⟩
      iapply (sound_kernel1_mid c Set.univ (grid1.coords t) hc0 hc1 _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, Hg⟩
  isplitl [HS]
  · iapply (scoped1_forget (F := F) c (acc1 V c ((Fin.last cfg1.N).val - 1) (by omega)))
    iexact HS
  iexact Hg

end Cert.Kernel.Hand

end
-- ==== Proof.KRun.lean ====
/-
  The whole program as a run: recast S, the first pallas_call, flatten X, the second pallas_call, unflatten the result.
  The contents of every unscoped buffer at each of the six boundaries are a fold from the launch memory: a host
  operation's result after a host stretch, a pallas_call's arrays at what its write-backs leave after a region. Each
  region is entered from the boundary before it and left at the one after it; the run ends with every unscoped buffer
  at the fold's last stage, from which both the frame (no stage writes an argument) and the result's value are read.
-/
import proofs.«162678_j19954418057631_1_alg».proof.Proof.KFrame0
import proofs.«162678_j19954418057631_1_alg».proof.Proof.KFrame1
import proofs.«162678_j19954418057631_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After S is recast as a one-row matrix (the first region's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After X is flattened (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the result is unflattened: the program's end. -/
abbrev W5 : Dev nD → Valuation τ sig (Elt F) := fun c => StableHlo.after hostOps2 (W4 m c)

/-! ## No stage writes an argument -/

/-- X is read only by the flattening. -/
theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
/-- U is an input array of the first region: read, never written back. -/
theorem W5_main_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  ((W2_arr m c 0).trans (((dat0 (E1 m) c).arrAt_in 0 rfl _).trans (A_eq0 (E1 m) c 0))).trans <|
  (StableHlo.after_of_writes_sub hostOps0 _ hostOps0_writes (r := main_arg1) (by decide)).trans rfl
/-- S is read only by the recast. -/
theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl
/-- V is an input array of the first region. -/
theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  ((W2_arr m c 2).trans (((dat0 (E1 m) c).arrAt_in 2 rfl _).trans (A_eq0 (E1 m) c 2))).trans <|
  (StableHlo.after_of_writes_sub hostOps0 _ hostOps0_writes (r := main_arg3) (by decide)).trans rfl

/-! ## The proof data family and the thread state -/

/-- No pipeline has a prefetched table. -/
abbrev noTables : (p : Fin 2) → (pcfgs (F := F) p).Adm := fun p => (cfgs p).toPCfg_adm
/-- Both pipelines' proof data, each at its region's entry contents. -/
def pdatsH : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E3 m) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, and nothing owed. -/
abbrev Rside (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the program's end contents, the generator register at some state. -/
abbrev TN (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) noTables (pdatsH m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (W1 m c) ∗ Rside c)
  post c := iprop(StableHlo.held (c : Thread nD τ) (Pipeline.ucRefs τ sig) (W2 m c) ∗ Rside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdatsH m) ((pdatsH m 0 c).share_full fun _ => rfl)
      (E1 m c) (X2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. The invariant before its first point is
    the plain one and after its last point gives the plain one back (the accumulator's contents are forgotten). -/
def reg1 : Pipeline.RegionSeg (pcfgs (F := F)) noTables (pdatsH m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevels 1 fun _ _ => rfl
  pre c := iprop(StableHlo.held (c : Thread nD τ) (Pipeline.ucRefs τ sig) (W3 m c) ∗ Rside c)
  post c := iprop(StableHlo.held (c : Thread nD τ) (Pipeline.ucRefs τ sig) (W4 m c) ∗ Rside c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = (dat1 (E3 m) c).Φ 0 from rfl]
    have h : iprop((∃ r, prngReg c r) ∗ Pipeline.prefHeld (pcfgs (F := F) 1).pre c (fun _ => fullShare) (noTables (F := F) 1).1
        ∗ Pipeline.scopedRest (Pipeline.pin (pcfgs (F := F)) noTables 1).spec c) ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none, show (pdatsH m 1 c).Φ (Fin.last _) = (dat1 (E3 m) c).Φ (Fin.last cfg1.N) from rfl]
    have h : (Pipeline.ΦA spec1 c : sProp 𝕄) ⊢ iprop((∃ r, prngReg c r) ∗ BI.emp
        ∗ Pipeline.scopedRest (Pipeline.pin (pcfgs (F := F)) noTables 1).spec c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) noTables (Ix := Unit) (Name := ℕ) (U := UR sig nD τ) (Lvl := ℕ)
      launch1.win launch1.arr_whole c (pdatsH m) ((pdatsH m 1 c).share_full fun _ => rfl)
      (E3 m c) (X4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev mainSegs : List (Pipeline.Seg (pcfgs (F := F)) noTables (pdatsH m) () defs₀ noVariants noPairs noLevels) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]
/-- The program is the run of its segments. -/
theorem main_run (c : Dev nD) : main (F := F) c = Pipeline.Seg.run (mainSegs m) := (main_chain c).trans (by chain_rfl)

set_option backward.isDefEq.respectTransparency.types false in
/-- From any memory with zero counters, every weakly fair execution of the program on the TensorCores terminates,
    nothing faulting, and every final state has every unscoped buffer at the end contents `W5`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) noTables (pdatsH m) () cellOf_inj emb₁ defs₀ noVariants noPairs noLevels m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rside c)) (Tₙ := TN m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ Rside c)
        ⊢ iprop(TN m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.Frame0.lean ====
/-
  The first pallas_call (the low-rank reconstruction W = (U·S) Vᵀ, one 1024×1024 block of W per grid point) as a
  pipeline region entered at arbitrary buffer contents `V`: the blocks of U, S and V a point reads, what the body's
  one store leaves in the output block, the body's triple, and the pipeline's proof data with its body obligation.
  The body reads three input blocks and overwrites the whole output block, so nothing is carried between points.
-/
import proofs.«162678_j19954418057631_1_alg».proof.Proof.Gen.KernelIdeal.Launch
import proofs.«162678_j19954418057631_1_alg».proof.Proof.Gen.KernelIdeal.Skeleton
import proofs.«162678_j19954418057631_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or the
    block index has not moved since the last fetch. One lemma per input window: the rows of U, the row S, the rows of V. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store is of a whole block -/

abbrev rU : Rect S1024x256 := Rect.unit (s := S1024x256) ![0, 0] S1024x256.size inb_S1024x256_S1024x256_0_0
abbrev rS : Rect S1x256 := Rect.unit (s := S1x256) ![0, 0] S1x256.size inb_S1x256_S1x256_0_0
abbrev rW : Rect S1024x1024 := Rect.unit (s := S1024x1024) ![0, 0] S1024x1024.size inb_S1024x1024_S1024x1024_0_0

/-- The output block after the body, from the three input blocks: the one whole-block store of the product. -/
def out0_3 (x0 : Vec F S1024x256 .f32) (x1 : Vec F S1x256 .f32) (x2 : Vec F S1024x256 .f32) : Vec F S1024x1024 .bf16 :=
  View.canon [⟨rW, k0_pay1 (View.ld x0 rU) (View.ld x1 rS) (View.ld x2 rU)⟩]

/-- The store is of the whole block, so it covers it. -/
theorem cover0_3 (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

/-! ## The body's triple -/

set_option maxHeartbeats 1000000 in
/-- On whole staging buffers, the inputs' at contents `x0`, `x1`, `x2` and the output's at anything, the body runs to
    the continuation with the inputs untouched and the output at `out0_3` of them. -/
theorem sound_kernel0 (c : Dev nD) (E : Set ℕ) (i : grid0.Coords)
    (arg2 : Memref sig .tc .vmem S1024x256 .f32) (harg2 : arg2.IsWhole) (arg3 : Memref sig .tc .vmem S1x256 .f32) (harg3 : arg3.IsWhole)
    (arg4 : Memref sig .tc .vmem S1024x256 .f32) (harg4 : arg4.IsWhole) (arg5 : Memref sig .tc .vmem S1024x1024 .bf16) (harg5 : arg5.IsWhole)
    (x0 : Vec F S1024x256 .f32) (x1 : Vec F S1x256 .f32) (x2 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__lowrank_kernel i arg2 harg2 arg3 harg3 arg4 harg4 arg5 harg5) K := by
  simp only [cc0__lowrank_kernel_eq_skeleton]; unfold cc0__lowrank_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the first pipeline on core `c`: the arrays as the region finds them; after the body at point `t`
    each input's buffer still at its block and the output's at `out0_3` of the three input blocks; nothing carried
    between points (the invariant is the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Frame1.lean ====
/-
  The second pallas_call (out = X · Wᵀ, a 1024×1024 output block accumulated over eight 512-wide slices of the contracted
  axis) as a pipeline region entered at arbitrary buffer contents `V`. The accumulator is a scratch buffer the kernel
  keeps between grid points: reset at the first slice of a block, added to at every slice, and copied to the output
  block at the last slice. Its contents after each point are a fold over the points of the current block.
-/
import proofs.«162678_j19954418057631_1_alg».proof.Proof.Gen.KernelIdeal.Launch
import proofs.«162678_j19954418057631_1_alg».proof.Proof.Gen.KernelIdeal.Skeleton
import proofs.«162678_j19954418057631_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (both inputs are fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- "This is the first slice of the contracted axis" (the accumulator is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last slice" (the accumulator is copied to the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle; the output is idle, and not written back, exactly where the last-slice copy does not run. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's accesses: every load and store is of a whole block -/

abbrev rX : Rect S1024x512 := Rect.unit (s := S1024x512) ![0, 0] S1024x512.size inb_S1024x512_S1024x512_0_0
abbrev rA : Rect S1024x1024 := Rect.unit (s := S1024x1024) ![0, 0] S1024x1024.size inb_S1024x1024_S1024x1024_0_0
theorem hz2 : (![0, 0] : Fin 2 → Nat) = fun _ => 0 := by funext a; fin_cases a <;> rfl

/-- The scratch accumulator, a whole scoped buffer of the kernel's own. -/
abbrev scM1 : Memref sig .tc .vmem S1024x1024 .f32 := Memref.whole cc1_scratch0

/-! ## The accumulation -/

/-- What the scratch accumulator holds after the body at position `n`: the point's slice product added to the zero
    block at the first slice of an output block, and to what the point before left at the other slices. -/
def acc1 (c : Dev nD) : (n : ℕ) → n < cfg1.N → Vec F S1024x1024 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

/-- At the first slice of a block the accumulator restarts from zero. -/
theorem acc1_first (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact (if_pos h).trans rfl

/-- At any other slice it adds to what the point before left. -/
theorem acc1_next (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant: the scratch accumulator at the fold -/

/-- The core's scoped buffers that no window of this pipeline stages: the first pallas_call's seven staging buffers, each
    whole at some contents, and this kernel's scratch accumulator at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The accumulator's part can be exchanged under the seven other buffers. -/
theorem scoped1_mono (c : Dev nD) {S S' : sProp 𝕄} (h : S ⊢ S') : scoped1 (F := F) c S ⊢ scoped1 (F := F) c S' := by
  unfold scoped1
  iintro ⟨H1, H2, H3, H4, H5, H6, H7, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HS

/-- The accumulator's contents can be forgotten. -/
theorem scoped1_forget (c : Dev nD) (a : Vec F S1024x1024 .f32) :
    scoped1 (F := F) c (owns (c : Thread nD τ) scM1 fullShare a) ⊢ scoped1 (F := F) c iprop(∃ d, owns (c : Thread nD τ) scM1 fullShare d) :=
  scoped1_mono c (by iintro H; iexists a; iexact H)

/-- The region's plain invariant (every scoped buffer no window stages at some contents, and the generator register)
    with the scratch accumulator singled out as a memref owned at some contents. -/
theorem PhiA1_eq (c : Dev nD) :
    (Pipeline.ΦA spec1 c : sProp 𝕄)
      = iprop(scoped1 (F := F) c iprop(∃ d, owns (c : Thread nD τ) scM1 fullShare d) ∗ (∃ r, prngReg c r)) := by
  unfold Pipeline.ΦA scoped1; rw [scopedRest1_eq]; simp only [scM1, owns_whole]; try rfl

/-- The invariant before position `n`: before the first point the plain one; afterwards the same with the scratch
    accumulator at what the point before left in it. -/
def PhiS1 (c : Dev nD) : (n : ℕ) → n ≤ cfg1.N → sProp 𝕄
  | 0, _ => Pipeline.ΦA spec1 c
  | n + 1, hn => iprop(scoped1 (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 (F := F) c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1 fullShare (acc1 V c (n - 1) (by omega))) ∗ (∃ r, prngReg c r)) := by
  cases n with
  | zero => exact absurd rfl hz
  | succ n => rfl

/-! ## The pipeline's proof data -/

/-- The proof data of the second pipeline on core `c`: the arrays as the region finds them; after the body at point `t`
    each input's buffer still at its block; the output block — stored only at the last slice, where it takes the
    accumulator — stated as the accumulator at every point (at the other points the window is idle and the statement
    is not consulted); the invariant carries the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triples, one per control case -/

/-- Every index lies in the whole-block rectangle. -/
theorem mem_rA (y : S1024x1024.Idx) : y ∈ rA.set := by
  have h : ∀ (off : Fin 2 → Nat) (_ : off = fun _ => 0) (inb : ∀ a, off a + S1024x1024.size a ≤ S1024x1024.size a),
      y ∈ (Rect.unit (s := S1024x1024) off S1024x1024.size inb).set := by
    intro off h inb; subst h; show y ∈ (Rect.whole S1024x1024).set; rw [Rect.set_whole]; exact Finset.mem_univ y
  exact h _ hz2 _

/-- A list of stores whose last one is of the whole block covers the block. -/
theorem cover_rA (p0 : Vec F S1024x1024 .f32) (L : List (View.Piece (Elt F) S1024x1024 .f32)) (y : S1024x1024.Idx) :
    ∃ pc ∈ ((⟨rA, p0⟩ : View.Piece (Elt F) S1024x1024 .f32) :: L), y ∈ pc.1.set :=
  ⟨_, List.mem_cons_self .., mem_rA y⟩

set_option maxHeartbeats 2000000 in
/-- A middle slice (neither first nor last): the accumulator `a` becomes `a` plus the slice's product; the output block's
    buffer is not touched. -/
theorem sound_kernel1_mid (c : Dev nD) (E : Set ℕ) (i : grid1.Coords) (hc0 : ¬cond1_0 i) (hc1 : ¬cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (xi : Vec F S1024x1024 .f32) (a : Vec F S1024x1024 .f32) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare a
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rA _ _), View.canon_cons_unit_zero hz2]
  simp only [View.readAt_eq_ld, View.ld_unit_zero (S := S1024x512) hz2, View.ld_unit_zero (S := S1024x1024) hz2]

set_option maxHeartbeats 2000000 in
/-- The first slice of an output block (and not the last): the accumulator, at anything, is reset to the zero block and
    then takes the slice's product; the output block's buffer is not touched. -/
theorem sound_kernel1_first (c : Dev nD) (E : Set ℕ) (i : grid1.Coords) (hc0 : cond1_0 i) (hc1 : ¬cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (xi : Vec F S1024x1024 .f32) (K : PUnit → sProp 𝕄) :
    iprop(owns (c : Thread nD τ) arg3 fullShare x0 ∗ owns (c : Thread nD τ) arg4 fullShare x1 ∗ owns (c : Thread nD τ) arg5 fullShare xi
        ∗ (∃ a, owns (c : Thread nD τ) arg6 fullShare a)
        ∗ (iprop(owns (c : Thread nD τ) arg3 fullShare x0 ∗ owns (c : Thread nD τ) arg4 fullShare x1 ∗ owns (c : Thread nD τ) arg5 fullShare xi
            ∗ owns (c : Thread nD τ) arg6 fullShare (k1_pay2 x0 x1 k1_pay1)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%a, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_rA _ _), View.canon_cons_unit_zero hz2]
  simp only [View.readAt_eq_ld, View.ld_unit_zero (S := S1024x512) hz2, View.ld_unit_zero (S := S1024x1024) hz2,
    View.readCov_unit_zero (S := S1024x1024) _ hz2]

set_option maxHeartbeats 2000000 in
/-- The last slice (and not the first): the accumulator `a` takes the slice's product and is copied to the output block's
    buffer, which held anything. -/
theorem sound_kernel1_last (c : Dev nD) (E : Set ℕ) (i : grid1.Coords) (hc0 : ¬cond1_0 i) (hc1 : cond1_1 i)
    (arg3 : Memref sig .tc .vmem S1024x512 .f32) (harg3 : arg3.IsWhole) (arg4 : Memref sig .tc .vmem S1024x512 .bf16) (harg4 : arg4.IsWhole)
    (arg5 : Memref sig .tc .vmem S1024x1024 .f32) (harg5 : arg5.IsWhole) (arg6 : Memref sig .tc .vmem S1024x1024 .f32) (harg6 : arg6.IsWhole)
    (x0 : Vec F S1024x512 .f32) (x1 : Vec F S1024x512 .bf16) (a : Vec F S1024x1024 .f32) (K : PUnit → sProp 𝕄) :
    iprop(owns (c : Thread nD τ) arg3 fullShare x0 ∗ owns (c : Thread nD τ) arg4 fullShare x1 ∗ (∃ xi, owns (c : Thread nD τ) arg5 fullShare xi)
        ∗ owns (c : Thread nD τ) arg6 fullShare a
        ∗ (iprop(owns (c : Thread nD τ) arg3 fullShare x0 ∗ owns (c : Thread nD τ) arg4 fullShare x1
            ∗ owns (c : Thread nD τ) arg5 fullShare (k1_pay2 x0 x1 a)
            ∗ owns (c : Thread nD τ) arg6 fullShare (k1_pay2 x0 x1 a)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f0, %hf0, H0⟩, ⟨%f1, %hf1, H1⟩, ⟨%xi, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_rA _ _), View.canon_cons_unit_zero hz2]
    simp only [View.readAt_eq_ld, View.ld_unit_zero (S := S1024x512) hz2, View.ld_unit_zero (S := S1024x1024) hz2,
      View.readCov_unit_zero (S := S1024x1024) _ hz2]
  iexists _; isplitr
  swap; · iexact H3
  ipureintro
  sl_unfold_words
  rw [View.read_writes_eq_canon _ _ _ (cover_rA _ _), View.canon_cons_unit_zero hz2]
  simp only [View.readAt_eq_ld, View.ld_unit_zero (S := S1024x512) hz2, View.ld_unit_zero (S := S1024x1024) hz2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point's slice number says which control case it is
    in; the invariant hands the body the accumulator at what the point before left (at anything before the first point)
    and takes it back at this point's fold; at a point that is not a last slice the output block's buffer passes through
    untouched, at a last slice it takes the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 512 := lt_of_lt_of_eq t.isLt (show cfg1.N = 512 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 2 t (idleAt1_2 t hc1) (noFlush1_2 t hc1)]
      rw [acc1_first V c t h0]
      have hΦ : (dat1 V c).Φ t.castSucc ⊢ iprop(scoped1 (F := F) c iprop(∃ d, owns (c : Thread nD τ) scM1 fullShare d) ∗ (∃ r, prngReg c r)) := by
        rw [PhiS1_castSucc V c t]
        by_cases hz : t.val = 0
        · rw [PhiS1_zero V c _ _ hz, PhiA1_eq]
        · rw [PhiS1_pos V c _ _ hz]
          iintro ⟨HS, Hg⟩
          isplitl [HS]
          · iapply (scoped1_forget (F := F) c (acc1 V c (t.val - 1) (by omega)))
            iexact HS
          iexact Hg
      iintro ⟨HΦ, Ho, ⟨%d0, H0⟩, ⟨%d1, H1⟩, ⟨%d2, H2⟩⟩
      ihave HΦ' := hΦ $$ HΦ
      unfold scoped1
      icases HΦ' with ⟨⟨A1, A2, A3, A4, A5, A6, A7, HS⟩, Hg⟩
      iapply (sound_kernel1_first c Set.univ (grid1.coords t) hc0 hc1 _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_next V c t h0, PhiS1_castSucc V c t, PhiS1_pos V c _ _ hz]
    unfold scoped1
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t h0]
      iintro ⟨⟨⟨A1, A2, A3, A4, A5, A6, A7, HS⟩, Hg⟩, Ho, ⟨%d0, H0⟩, ⟨%d1, H1⟩, ⟨%d2, H2⟩⟩
      iapply (sound_kernel1_last c Set.univ (grid1.coords t) hc0 hc1 _ _ _ _ _ _ _ _ (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨A1, A2, A3, A4, A5, A6, A7, HS⟩, Hg⟩, Ho, ⟨%d0, H0⟩, ⟨%d1, H1⟩, ⟨%d2, H2⟩⟩
      iapply (sound_kernel1_mid c Set.univ (grid1.coords t) hc0 hc1 _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [A1 A2 A3 A4 A5 A6 A7 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS, Hg⟩
  isplitl [HS]
  · iapply (scoped1_forget (F := F) c (acc1 V c ((Fin.last cfg1.N).val - 1) (by omega)))
    iexact HS
  iexact Hg

end Cert.KernelIdeal.Hand

end
-- ==== Proof.Run.lean ====
/-
  The whole program as a run: recast S, the first pallas_call, flatten X, the second pallas_call, unflatten the result.
  The contents of every unscoped buffer at each of the six boundaries are a fold from the launch memory: a host
  operation's result after a host stretch, a pallas_call's arrays at what its write-backs leave after a region. Each
  region is entered from the boundary before it and left at the one after it; the run ends with every unscoped buffer
  at the fold's last stage, from which both the frame (no stage writes an argument) and the result's value are read.
-/
import proofs.«162678_j19954418057631_1_alg».proof.Proof.Frame0
import proofs.«162678_j19954418057631_1_alg».proof.Proof.Frame1
import proofs.«162678_j19954418057631_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After S is recast as a one-row matrix (the first region's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After X is flattened (the second region's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-- After the result is unflattened: the program's end. -/
abbrev W5 : Dev nD → Valuation τ sig (Elt F) := fun c => StableHlo.after hostOps2 (W4 m c)

/-! ## No stage writes an argument -/

/-- X is read only by the flattening. -/
theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl
/-- U is an input array of the first region: read, never written back. -/
theorem W5_main_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  ((W2_arr m c 0).trans (((dat0 (E1 m) c).arrAt_in 0 rfl _).trans (A_eq0 (E1 m) c 0))).trans <|
  (StableHlo.after_of_writes_sub hostOps0 _ hostOps0_writes (r := main_arg1) (by decide)).trans rfl
/-- S is read only by the recast. -/
theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl
/-- V is an input array of the first region. -/
theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  ((W2_arr m c 2).trans (((dat0 (E1 m) c).arrAt_in 2 rfl _).trans (A_eq0 (E1 m) c 2))).trans <|
  (StableHlo.after_of_writes_sub hostOps0 _ hostOps0_writes (r := main_arg3) (by decide)).trans rfl

/-! ## The proof data family and the thread state -/

/-- No pipeline has a prefetched table. -/
abbrev noTables : (p : Fin 2) → (pcfgs (F := F) p).Adm := fun p => (cfgs p).toPCfg_adm
/-- Both pipelines' proof data, each at its region's entry contents. -/
def pdatsH : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E3 m) c
abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every segment: the generator register at some state, and nothing owed. -/
abbrev Rside (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the program's end contents, the generator register at some state. -/
abbrev TN (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The first region: entered from every unscoped buffer at `W1`, left at `W2`. Its arrays are split out of the unscoped
    buffers and put back at the exit contents; the generator register goes into the invariant and comes out. -/
def reg0 : Pipeline.RegionSeg (pcfgs (F := F)) noTables (pdatsH m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevels 0 fun _ _ => rfl
  pre c := iprop(StableHlo.held (c : Thread nD τ) (Pipeline.ucRefs τ sig) (W1 m c) ∗ Rside c)
  post c := iprop(StableHlo.held (c : Thread nD τ) (Pipeline.ucRefs τ sig) (W2 m c) ∗ Rside c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdatsH m) ((pdatsH m 0 c).share_full fun _ => rfl)
      (E1 m c) (X2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W3`, left at `W4`. The invariant before its first point is
    the plain one and after its last point gives the plain one back (the accumulator's contents are forgotten). -/
def reg1 : Pipeline.RegionSeg (pcfgs (F := F)) noTables (pdatsH m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevels 1 fun _ _ => rfl
  pre c := iprop(StableHlo.held (c : Thread nD τ) (Pipeline.ucRefs τ sig) (W3 m c) ∗ Rside c)
  post c := iprop(StableHlo.held (c : Thread nD τ) (Pipeline.ucRefs τ sig) (W4 m c) ∗ Rside c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = (dat1 (E3 m) c).Φ 0 from rfl]
    have h : iprop((∃ r, prngReg c r) ∗ Pipeline.prefHeld (pcfgs (F := F) 1).pre c (fun _ => fullShare) (noTables (F := F) 1).1
        ∗ Pipeline.scopedRest (Pipeline.pin (pcfgs (F := F)) noTables 1).spec c) ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none, show (pdatsH m 1 c).Φ (Fin.last _) = (dat1 (E3 m) c).Φ (Fin.last cfg1.N) from rfl]
    have h : (Pipeline.ΦA spec1 c : sProp 𝕄) ⊢ iprop((∃ r, prngReg c r) ∗ BI.emp
        ∗ Pipeline.scopedRest (Pipeline.pin (pcfgs (F := F)) noTables 1).spec c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) noTables (Ix := Unit) (Name := ℕ) (U := UR sig nD τ) (Lvl := ℕ)
      launch1.win launch1.arr_whole c (pdatsH m) ((pdatsH m 1 c).share_full fun _ => rfl)
      (E3 m c) (X4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order. -/
abbrev mainSegs : List (Pipeline.Seg (pcfgs (F := F)) noTables (pdatsH m) () defs₀ noVariants noPairs noLevels) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]
/-- The program is the run of its segments. -/
theorem main_run (c : Dev nD) : main (F := F) c = Pipeline.Seg.run (mainSegs m) := (main_chain c).trans (by chain_rfl)

set_option backward.isDefEq.respectTransparency.types false in
/-- From any memory with zero counters, every weakly fair execution of the program on the TensorCores terminates,
    nothing faulting, and every final state has every unscoped buffer at the end contents `W5`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) noTables (pdatsH m) () cellOf_inj emb₁ defs₀ noVariants noPairs noLevels m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rside c)) (Tₙ := TN m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ Rside c)
        ⊢ iprop(TN m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.Spec.lean ====
/-
  The two matrix products of the low-rank layer as functions of the argument arrays, index by index, on the extended
  reals:  W[o, i] = Σ_r (U[o, r] · S[r]) · V[i, r]   and   out[m, o] = Σ_i X[m, i] · W[o, i],
  and the layer's result on the unflattened batch, out[b, s, o] = Σ_i X[b, s, i] · Σ_r (U[o, r] · S[r]) · V[i, r].
-/
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The reconstructed weight: row `o` of U scaled by S, against row `i` of V. The scale is a one-row matrix. -/
def Wspec (u : (⟨2, ![4096, 256]⟩ : Shape).Idx → EReal) (s : (⟨2, ![1, 256]⟩ : Shape).Idx → EReal)
    (v : (⟨2, ![4096, 256]⟩ : Shape).Idx → EReal) : (⟨2, ![4096, 4096]⟩ : Shape).Idx → EReal :=
  fun j => ∑ r : Fin 256, (u (ix2 (n0 := 4096) (n1 := 256) (j 0) r) * s (ix2 (n0 := 1) (n1 := 256) 0 r)) * v (ix2 (n0 := 4096) (n1 := 256) (j 1) r)

/-- The dense layer on the flattened batch: row `m` of X against row `o` of W. -/
def Ospec (x : (⟨2, ![16384, 4096]⟩ : Shape).Idx → EReal) (w : (⟨2, ![4096, 4096]⟩ : Shape).Idx → EReal) :
    (⟨2, ![16384, 4096]⟩ : Shape).Idx → EReal :=
  fun j => ∑ i : Fin 4096, x (ix2 (n0 := 16384) (n1 := 4096) (j 0) i) * w (ix2 (n0 := 4096) (n1 := 4096) (j 1) i)

/-- The layer's result, from the four argument arrays. -/
def Gfinal (x : (⟨3, ![8, 2048, 4096]⟩ : Shape).Idx → EReal) (u : (⟨2, ![4096, 256]⟩ : Shape).Idx → EReal)
    (s : (⟨1, ![256]⟩ : Shape).Idx → EReal) (v : (⟨2, ![4096, 256]⟩ : Shape).Idx → EReal) :
    (⟨3, ![8, 2048, 4096]⟩ : Shape).Idx → EReal :=
  fun j => ∑ i : Fin 4096, x (ix3 (n0 := 8) (n1 := 2048) (n2 := 4096) (j 0) (j 1) i)
    * ∑ r : Fin 256, (u (ix2 (n0 := 4096) (n1 := 256) (j 2) r) * s (ix1 (n := 256) r)) * v (ix2 (n0 := 4096) (n1 := 256) i r)

end Cert.Spec

end
-- ==== Proof.Value0.lean ====
/-
  The first pallas_call's output array after its run, at the extended reals: every 1024×1024 block of W is written once,
  by the grid point whose block it is, with the product of the point's rows of U·S and rows of V; so the whole array
  is W[o, i] = Σ_r (U[o, r] · S[r]) · V[i, r].
-/
import proofs.«162678_j19954418057631_1_alg».proof.Proof.Frame0
import proofs.«162678_j19954418057631_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The contraction's operand indices

The product contracts axis 1 of both operands: at output index (p, q) and contraction index r the left operand is read
at (p, r) and the right operand at (q, r). One lemma per operand axis. -/

theorem lhs_axis0 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
theorem rhs_axis0 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

/-! ## The body's arithmetic at one entry of the block -/

/-- The one-row block broadcast down the rows, read at (p, r), is the row's entry r. -/
theorem row_down (x1 : Vec Ideal S1x256 .f32) (p : Fin 1024) (r : Fin 256) :
    broadcastTo S1024x256 (shapeCast S1x256 x1 shapeCasts_S1x256_S1x256) broadcasts_S1x256_S1024x256 (ix2 p r)
      = x1 (ix2 (n0 := 1) (n1 := 256) 0 r) := by
  rw [shapeCast_self]
  exact broadcastTo_apply x1 broadcasts_S1x256_S1024x256 (ix2 p r) (ix2 (n0 := 1) (n1 := 256) 0 r) (fun a => match a with
    | ⟨0, _⟩ => by show 0 = if (1 : Nat) = 1 then 0 else _; rw [if_pos rfl]
    | ⟨1, _⟩ => by show r.val = if (256 : Nat) = 1 then 0 else r.val; rw [if_neg (by decide)])

/-- Entry (p, q) of what the body stores: the sum over r of (x0[p, r] · x1[0, r]) · x2[q, r]. The two roundings to
    bf16 and the last one are the identity on extended reals, and the accumulator is the zero constant. -/
theorem pay_apply (x0 : Vec Ideal S1024x256 .f32) (x1 : Vec Ideal S1x256 .f32) (x2 : Vec Ideal S1024x256 .f32)
    (p q : Fin 1024) :
    k0_pay1 (F := Ideal) x0 x1 x2 (ix2 p q)
      = ∑ r : Fin 256, (x0 (ix2 p r) * x1 (ix2 (n0 := 1) (n1 := 256) 0 r)) * x2 (ix2 q r) := by
  unfold k0_pay1
  refine (Ideal.matmul_constant_zero_apply dot_S1024x256_S1024x256_S1024x1024_1_1_0_0_n_n none _ _ (ix2 p q)).trans ?_
  rw [← Equiv.sum_comp (ValueIdx.contrEquiv1 dot_S1024x256_S1024x256_S1024x1024_1_1_0_0_n_n 256 rfl rfl).symm]
  refine Finset.sum_congr rfl fun r _ => ?_
  have hr := ValueIdx.contrEquiv1_symm_val dot_S1024x256_S1024x256_S1024x1024_1_1_0_0_n_n 256 rfl rfl r
  have el : dot_S1024x256_S1024x256_S1024x1024_1_1_0_0_n_n.lhsIdx (ix2 p q) ((ValueIdx.contrEquiv1 dot_S1024x256_S1024x256_S1024x1024_1_1_0_0_n_n 256 rfl rfl).symm r) = ix2 p r := funext fun a => Fin.ext (by
    match a with
    | ⟨0, _⟩ => exact lhs_axis0 _ _
    | ⟨1, _⟩ => exact (lhs_axis1 _ _).trans hr)
  have er : dot_S1024x256_S1024x256_S1024x1024_1_1_0_0_n_n.rhsIdx (ix2 p q) ((ValueIdx.contrEquiv1 dot_S1024x256_S1024x256_S1024x1024_1_1_0_0_n_n 256 rfl rfl).symm r) = ix2 q r := funext fun a => Fin.ext (by
    match a with
    | ⟨0, _⟩ => exact rhs_axis0 _ _
    | ⟨1, _⟩ => exact (rhs_axis1 _ _).trans hr)
  rw [el, er]
  exact congrArg (fun z => (x0 (ix2 p r) * z) * x2 (ix2 q r)) (row_down x1 p r)

variable (V : (c : Dev nD) → (b : Ref sig .tc) → Buf (Elt Ideal) ((c : Thread nD τ).loc b))

/-! ## One entry of the block, from the arrays -/

/-- If the three blocks are the rows a·1024.. of u, the row s, and the rows b·1024.. of v, then entry (p, q) of what the
    body stores is entry (a·1024 + p, b·1024 + q) of the reconstructed weight. -/
theorem block_entry (x0 : Vec Ideal S1024x256 .f32) (x1 : Vec Ideal S1x256 .f32) (x2 : Vec Ideal S1024x256 .f32)
    (u : S4096x256.Idx → EReal) (s : S1x256.Idx → EReal) (v : S4096x256.Idx → EReal)
    (a b : Nat) (p q : Fin 1024) (ha : a * 1024 + p.val < 4096) (hb : b * 1024 + q.val < 4096)
    (h0 : ∀ r : Fin 256, x0 (ix2 p r) = u (ix2 (n0 := 4096) (n1 := 256) ⟨a * 1024 + p.val, ha⟩ r))
    (h1 : ∀ r : Fin 256, x1 (ix2 (n0 := 1) (n1 := 256) 0 r) = s (ix2 (n0 := 1) (n1 := 256) 0 r))
    (h2 : ∀ r : Fin 256, x2 (ix2 q r) = v (ix2 (n0 := 4096) (n1 := 256) ⟨b * 1024 + q.val, hb⟩ r)) :
    k0_pay1 (F := Ideal) x0 x1 x2 (ix2 p q)
      = Cert.Spec.Wspec u s v (ix2 (n0 := 4096) (n1 := 4096) ⟨a * 1024 + p.val, ha⟩ ⟨b * 1024 + q.val, hb⟩) := by
  rw [pay_apply]
  show _ = ∑ r : Fin 256, (u (ix2 (n0 := 4096) (n1 := 256) ⟨a * 1024 + p.val, ha⟩ r) * s (ix2 (n0 := 1) (n1 := 256) 0 r))
      * v (ix2 (n0 := 4096) (n1 := 256) ⟨b * 1024 + q.val, hb⟩ r)
  exact Finset.sum_congr rfl fun r _ => by rw [h0 r, h1 r, h2 r]

/-! ## The blocks a point reads and writes -/

theorem zero_offsets : (![0, 0] : Fin 2 → Nat) = fun _ => 0 := funext fun a => by fin_cases a <;> rfl

/-- The printed index maps over the sixteen points: the rows of U move with the output's row block, the rows of V with
    its column block, the row S stays, and both output block indices are below four. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (1 : Fin 2) ∧ win0_2.index t (1 : Fin 2) = 0
    ∧ win0_3.index t (0 : Fin 2) ≤ 3 ∧ win0_3.index t (1 : Fin 2) ≤ 3 :=
  (by decide +kernel : ∀ t : Fin grid0.N, _)

/-- Every one of the sixteen output blocks is some point's. -/
theorem index_onto : ∀ (i j : Fin 4), ∃ t : Fin cfg0.N, win0_3.index t = ![i.val, j.val] :=
  (by decide +kernel : ∀ (i j : Fin 4), ∃ t : Fin grid0.N, win0_3.index t = ![i.val, j.val])

/-- The block of U at point t is the rows of U starting at the output's row block. -/
theorem blockU (c : Dev nD) (t : Fin cfg0.N) (p : Fin 1024) (r : Fin 256)
    (h : win0_3.index t (0 : Fin 2) * 1024 + p.val < 4096) :
    iblk0 V c 0 t (ix2 p r) = V c main_arg1 (ix2 (n0 := 4096) (n1 := 256) ⟨win0_3.index t (0 : Fin 2) * 1024 + p.val, h⟩ r) := by
  obtain ⟨e0, e1, -⟩ := index_facts t
  unfold iblk0
  show V c main_arg1 (((cfg0.win 0).blk t).view.emb (ix2 p r)) = _
  refine congrArg (V c main_arg1) (funext fun a => Fin.ext ?_)
  match a with
  | ⟨0, _⟩ => show win0_0.index t (0 : Fin 2) * 1024 + 1 * p.val = win0_3.index t (0 : Fin 2) * 1024 + p.val; omega
  | ⟨1, _⟩ => show win0_0.index t (1 : Fin 2) * 256 + 1 * r.val = r.val; omega

/-- The block of S at every point is the row S. -/
theorem blockS (c : Dev nD) (t : Fin cfg0.N) (r : Fin 256) :
    iblk0 V c 1 t (ix2 (n0 := 1) (n1 := 256) 0 r) = V c main_v0 (ix2 (n0 := 1) (n1 := 256) 0 r) := by
  obtain ⟨-, -, e2, e3, -⟩ := index_facts t
  unfold iblk0
  show V c main_v0 (((cfg0.win 1).blk t).view.emb (ix2 (n0 := 1) (n1 := 256) 0 r)) = _
  refine congrArg (V c main_v0) (funext fun a => Fin.ext ?_)
  match a with
  | ⟨0, _⟩ => show win0_1.index t (0 : Fin 2) * 1 + 1 * 0 = 0; omega
  | ⟨1, _⟩ => show win0_1.index t (1 : Fin 2) * 256 + 1 * r.val = r.val; omega

/-- The block of V at point t is the rows of V starting at the output's column block. -/
theorem blockV (c : Dev nD) (t : Fin cfg0.N) (q : Fin 1024) (r : Fin 256)
    (h : win0_3.index t (1 : Fin 2) * 1024 + q.val < 4096) :
    iblk0 V c 2 t (ix2 q r) = V c main_arg3 (ix2 (n0 := 4096) (n1 := 256) ⟨win0_3.index t (1 : Fin 2) * 1024 + q.val, h⟩ r) := by
  obtain ⟨-, -, -, -, e4, e5, -⟩ := index_facts t
  unfold iblk0
  show V c main_arg3 (((cfg0.win 2).blk t).view.emb (ix2 q r)) = _
  refine congrArg (V c main_arg3) (funext fun a => Fin.ext ?_)
  match a with
  | ⟨0, _⟩ => show win0_2.index t (0 : Fin 2) * 1024 + 1 * q.val = win0_3.index t (1 : Fin 2) * 1024 + q.val; omega
  | ⟨1, _⟩ => show win0_2.index t (1 : Fin 2) * 256 + 1 * r.val = r.val; omega

/-- What point t writes back is its block of the reconstructed weight. -/
theorem written_back (c : Dev nD) (t : Fin cfg0.N) :
    (dat0 (F := Ideal) V c).flushed 3 t
      = ((cfg0.win 3).blk t).view.read (Elt Ideal) (Cert.Spec.Wspec (V c main_arg1) (V c main_v0) (V c main_arg3)) := by
  show (cfg0.win 3).cut (grid0.coords t) ((dat0 (F := Ideal) V c).after 3 t) = _
  rw [after0_3]
  unfold out0_3
  rw [View.canon_unit_zero zero_offsets]
  simp only [View.ld_unit_zero (S := S1024x256) zero_offsets, View.ld_unit_zero (S := S1x256) zero_offsets]
  obtain ⟨-, -, -, -, -, -, e6, e7⟩ := index_facts t
  funext j
  obtain ⟨p, q, rfl⟩ : ∃ (p : Fin 1024) (q : Fin 1024), j = ix2 p q := ⟨j 0, j 1, eq_ix2 j⟩
  have ha : win0_3.index t (0 : Fin 2) * 1024 + p.val < 4096 := by have := p.isLt; omega
  have hb : win0_3.index t (1 : Fin 2) * 1024 + q.val < 4096 := by have := q.isLt; omega
  refine (block_entry (iblk0 V c 0 t) (iblk0 V c 1 t) (iblk0 V c 2 t) (V c main_arg1) (V c main_v0) (V c main_arg3)
    (win0_3.index t (0 : Fin 2)) (win0_3.index t (1 : Fin 2)) p q ha hb
    (fun r => blockU V c t p r ha) (fun r => blockS V c t r) (fun r => blockV V c t q r hb)).trans ?_
  show Cert.Spec.Wspec (V c main_arg1) (V c main_v0) (V c main_arg3) _
    = Cert.Spec.Wspec (V c main_arg1) (V c main_v0) (V c main_arg3) (((cfg0.win 3).blk t).view.emb (ix2 p q))
  refine congrArg (Cert.Spec.Wspec (V c main_arg1) (V c main_v0) (V c main_arg3)) (funext fun a => Fin.ext ?_)
  match a with
  | ⟨0, _⟩ => show win0_3.index t (0 : Fin 2) * 1024 + p.val = win0_3.index t (0 : Fin 2) * 1024 + 1 * p.val; omega
  | ⟨1, _⟩ => show win0_3.index t (1 : Fin 2) * 1024 + q.val = win0_3.index t (1 : Fin 2) * 1024 + 1 * q.val; omega

/-- An entry of the array is in point t's block when each coordinate is in the block's range on its axis. -/
theorem mem_block (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- The sixteen blocks tile the array: entry (o, i) is in the block of the point with block index (o / 1024, i / 1024). -/
theorem tiled (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the region's sixteen points the output array holds the reconstructed weight of the arrays the region was
    entered with: U (`main_arg1`), the one-row S (`main_v0`) and V (`main_arg3`). -/
theorem final0 (c : Dev nD) :
    (dat0 (F := Ideal) V c).arrAt 3 cfg0.N = Cert.Spec.Wspec (V c main_arg1) (V c main_v0) (V c main_arg3) :=
  (dat0 (F := Ideal) V c).arrAt_eq_of_cover 3 (Cert.Spec.Wspec (V c main_arg1) (V c main_v0) (V c main_arg3))
    (fun t _ => written_back V c t) (tiled)

end Cert.KernelIdeal.Value0

end
-- ==== Proof.Value1.lean ====
/-
  The second pallas_call's output array after its run, at the extended reals: the accumulator after the k-th slice of
  an output block holds the partial sums over the first k+1 slices of the contracted axis; the block is written back
  at the eighth slice, so the whole array is out[m, o] = Σ_i X[m, i] · W[o, i].
-/
import proofs.«162678_j19954418057631_1_alg».proof.Proof.Frame1
import proofs.«162678_j19954418057631_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Value1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The slice product at an index

The matmul contracts axis 1 of both operands: at output index (p, q) and contraction index k the left operand is read
at (p, k) and the right operand at (q, k). -/

theorem lhs_mm_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_mm_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_mm_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_mm_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The zero block reads zero everywhere. -/
theorem zero_apply (p q : Fin 1024) : (k1_pay1 (F := Ideal)) (ix2 p q) = 0 := by
  unfold k1_pay1
  rw [shapeCast_self]
  exact Ideal.ofBits_zero_f32

/-- One point's step: the accumulator's entry plus the inner product, over the 512 columns of the slice, of row `p` of
    the X block with row `q` of the W block. -/
theorem step_apply (x : Vec Ideal S1024x512 .f32) (w : Vec Ideal S1024x512 .bf16) (a : Vec Ideal S1024x1024 .f32)
    (p q : Fin 1024) :
    k1_pay2 x w a (ix2 p q) = a (ix2 p q) + ∑ l : Fin 512, x (ix2 p l) * w (ix2 q l) := by
  unfold k1_pay2
  rw [shapeCast_self, shapeCast_self, shapeCast_self]
  rw [addf_apply]
  refine congrArg (a (ix2 p q) + ·) ?_
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun b => Fin.ext (by
    match b with
    | ⟨0, _⟩ => exact lhs_mm_0 _ _
    | ⟨1, _⟩ => exact (lhs_mm_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun b => Fin.ext (by
    match b with
    | ⟨0, _⟩ => exact rhs_mm_0 _ _
    | ⟨1, _⟩ => exact (rhs_mm_1 _ _).trans hk)
  rw [el, er]
  rfl

variable (V : (c : Dev nD) → (b : Ref sig .tc) → Buf (Elt Ideal) ((c : Thread nD τ).loc b))

/-! ## The arrays by natural coordinates, and the blocks read through the index maps -/

/-- The flattened X and W as the region finds them. -/
abbrev xarr (c : Dev nD) : (⟨2, ![16384, 4096]⟩ : Shape).Idx → EReal := V c main_v2
abbrev warr (c : Dev nD) : (⟨2, ![4096, 4096]⟩ : Shape).Idx → EReal := V c main_v1

/-- X[r, s] and W[r, s] with natural coordinates (zero off the array: never read there). -/
def Xn (c : Dev nD) (r s : ℕ) : EReal := if h : r < 16384 ∧ s < 4096 then xarr V c (ix2 ⟨r, h.1⟩ ⟨s, h.2⟩) else 0
def Wn (c : Dev nD) (r s : ℕ) : EReal := if h : r < 4096 ∧ s < 4096 then warr V c (ix2 ⟨r, h.1⟩ ⟨s, h.2⟩) else 0

/-- Point t = (4 i + j) 8 + k has i = t / 32, j = t / 8 % 4, k = t % 8; X's block index there is (i, k), W's (j, k), the
    output's (i, j). -/
theorem idx_facts : ∀ t : Fin cfg1.N, win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = t.val / 32 ∧ win1_2.index t (1 : Fin 2) = t.val / 8 % 4 :=
  (by decide +kernel : ∀ t : Fin grid1.N, _)

theorem N512 : cfg1.N = 512 := N_1

/-- The X block and the W block at point t. -/
abbrev xblk (c : Dev nD) (t : Fin cfg1.N) : Vec Ideal S1024x512 .f32 := iblk1 V c 0 t
abbrev wblk (c : Dev nD) (t : Fin cfg1.N) : Vec Ideal S1024x512 .bf16 := iblk1 V c 1 t

/-- Entry (p, l) of X's block at point t is X[1024 i + p, 512 k + l]. -/
theorem xblk_apply (c : Dev nD) (t : Fin cfg1.N) (p : Fin 1024) (l : Fin 512) :
    xblk V c t (ix2 p l) = Xn V c (1024 * (t.val / 32) + p.val) (512 * (t.val % 8) + l.val) := by
  obtain ⟨e0, e1, -, -, -, -⟩ := idx_facts t
  have ht : t.val < 512 := N512 ▸ t.isLt
  have hp := p.isLt
  have hl := l.isLt
  unfold Xn
  rw [dif_pos ⟨by omega, by omega⟩]
  unfold xblk iblk1
  rw [View.read_apply]
  show V c main_v2 _ = V c main_v2 _
  refine congrArg (V c main_v2) (funext fun a => Fin.ext ?_)
  match a with
  | ⟨0, _⟩ => show win1_0.index t (0 : Fin 2) * 1024 + 1 * p.val = 1024 * (t.val / 32) + p.val; rw [e0]; omega
  | ⟨1, _⟩ => show win1_0.index t (1 : Fin 2) * 512 + 1 * l.val = 512 * (t.val % 8) + l.val; rw [e1]; omega

/-- Entry (q, l) of W's block at point t is W[1024 j + q, 512 k + l]. -/
theorem wblk_apply (c : Dev nD) (t : Fin cfg1.N) (q : Fin 1024) (l : Fin 512) :
    wblk V c t (ix2 q l) = Wn V c (1024 * (t.val / 8 % 4) + q.val) (512 * (t.val % 8) + l.val) := by
  obtain ⟨-, -, e0, e1, -, -⟩ := idx_facts t
  have ht : t.val < 512 := N512 ▸ t.isLt
  have hq := q.isLt
  have hl := l.isLt
  unfold Wn
  rw [dif_pos ⟨by omega, by omega⟩]
  unfold wblk iblk1
  rw [View.read_apply]
  show V c main_v1 _ = V c main_v1 _
  refine congrArg (V c main_v1) (funext fun a => Fin.ext ?_)
  match a with
  | ⟨0, _⟩ => show win1_1.index t (0 : Fin 2) * 1024 + 1 * q.val = 1024 * (t.val / 8 % 4) + q.val; rw [e0]; omega
  | ⟨1, _⟩ => show win1_1.index t (1 : Fin 2) * 512 + 1 * l.val = 512 * (t.val % 8) + l.val; rw [e1]; omega

/-! ## The accumulator after each point: the partial sums over the slices so far -/

/-- Slice kk's contribution to output entry (p, q) of block (i, j) = (n / 32, n / 8 % 4). -/
def sliceTerm (c : Dev nD) (n : ℕ) (p q : Fin 1024) (kk : ℕ) : EReal :=
  ∑ l : Fin 512, Xn V c (1024 * (n / 32) + p.val) (512 * kk + l.val) * Wn V c (1024 * (n / 8 % 4) + q.val) (512 * kk + l.val)

/-- The partial sum over slices 0 … n % 8. -/
def partialSum (c : Dev nD) (n : ℕ) (p q : Fin 1024) : EReal :=
  ∑ kk ∈ Finset.range (n % 8 + 1), sliceTerm V c n p q kk

/-- The inner product of the two blocks' rows at point t is slice (t % 8)'s contribution. -/
theorem blocks_term (c : Dev nD) (t : Fin cfg1.N) (p q : Fin 1024) :
    ∑ l : Fin 512, xblk V c t (ix2 p l) * wblk V c t (ix2 q l)
      = sliceTerm V c t.val p q (t.val % 8) := by
  unfold sliceTerm
  refine Finset.sum_congr rfl fun l _ => ?_
  rw [xblk_apply V c t p l, wblk_apply V c t q l]

/-- After point n the accumulator holds, at (p, q), the partial sum over the slices up to n's. -/
theorem acc1_apply (c : Dev nD) : ∀ (n : ℕ) (h : n < cfg1.N) (p q : Fin 1024),
    acc1 V c n h (ix2 p q) = partialSum V c n p q := by
  intro n
  induction n with
  | zero =>
    intro h p q
    refine (congrFun (acc1_first V c ⟨0, h⟩ rfl) (ix2 p q)).trans ?_
    refine (step_apply (xblk V c ⟨0, h⟩) (wblk V c ⟨0, h⟩) (k1_pay1 (F := Ideal)) p q).trans ?_
    rw [zero_apply, zero_add, blocks_term V c ⟨0, h⟩ p q]
    unfold partialSum
    rw [Finset.sum_range_one]
    rfl
  | succ n ih =>
    intro h p q
    by_cases h8 : (n + 1) % 8 = 0
    · refine (congrFun (acc1_first V c ⟨n + 1, h⟩ h8) (ix2 p q)).trans ?_
      refine (step_apply (xblk V c ⟨n + 1, h⟩) (wblk V c ⟨n + 1, h⟩) (k1_pay1 (F := Ideal)) p q).trans ?_
      rw [zero_apply, zero_add, blocks_term V c ⟨n + 1, h⟩ p q]
      unfold partialSum
      show sliceTerm V c (n + 1) p q ((n + 1) % 8) = _
      rw [h8, Finset.sum_range_one]
    · refine (congrFun (acc1_next V c ⟨n + 1, h⟩ h8) (ix2 p q)).trans ?_
      refine (step_apply (xblk V c ⟨n + 1, h⟩) (wblk V c ⟨n + 1, h⟩) (acc1 V c n (Nat.lt_of_succ_lt h)) p q).trans ?_
      rw [ih (Nat.lt_of_succ_lt h) p q, blocks_term V c ⟨n + 1, h⟩ p q]
      have e1 : (n + 1) % 8 = n % 8 + 1 := by omega
      have e2 : (n + 1) / 32 = n / 32 := by omega
      have e3 : (n + 1) / 8 % 4 = n / 8 % 4 := by omega
      have st : ∀ kk, sliceTerm V c (n + 1) p q kk = sliceTerm V c n p q kk := fun kk => by
        unfold sliceTerm; rw [e2, e3]
      unfold partialSum
      show _ + sliceTerm V c (n + 1) p q ((n + 1) % 8) = _
      rw [e1, Finset.sum_range_succ _ (n % 8 + 1), st]
      exact congrArg (· + sliceTerm V c n p q (n % 8 + 1)) (Finset.sum_congr rfl fun kk _ => (st kk).symm)

/-! ## Eight slices of 512 are the whole contracted axis -/

theorem sum_slices (f : ℕ → EReal) :
    ∑ kk ∈ Finset.range 8, ∑ l : Fin 512, f (512 * kk + l.val) = ∑ i : Fin 4096, f i.val := by
  rw [Finset.sum_range]
  rw [← Equiv.sum_comp (finProdFinEquiv (m := 8) (n := 512)) (fun i : Fin 4096 => f i.val), Fintype.sum_prod_type]
  refine Finset.sum_congr rfl fun a _ => Finset.sum_congr rfl fun b _ => ?_
  refine congrArg f ?_
  show 512 * a.val + b.val = b.val + 512 * a.val
  omega

/-! ## The block written back at the last slice, and the whole array -/

/-- At the last slice of block (i, j) the accumulator's entry is the whole inner product of row 1024 i + p of X with
    row 1024 j + q of W: the dense layer's entry at the array index the block's entry lands on. -/
theorem acc1_last (c : Dev nD) (t : Fin cfg1.N) (h7 : t.val % 8 = 7) (y : S1024x1024.Idx) (j : S16384x4096.Idx)
    (h0 : (j 0).val = 1024 * (t.val / 32) + (y 0).val) (h1 : (j 1).val = 1024 * (t.val / 8 % 4) + (y 1).val) :
    acc1 V c t.val t.isLt y = Cert.Spec.Ospec (V c main_v2) (V c main_v1) j := by
  obtain ⟨p, q, rfl⟩ : ∃ (p : Fin 1024) (q : Fin 1024), y = ix2 p q := ⟨y 0, y 1, eq_ix2 y⟩
  have h0' : (j 0).val = 1024 * (t.val / 32) + p.val := h0
  have h1' : (j 1).val = 1024 * (t.val / 8 % 4) + q.val := h1
  rw [acc1_apply V c t.val t.isLt p q]
  unfold partialSum
  rw [h7]
  unfold sliceTerm
  rw [sum_slices (fun s => Xn V c (1024 * (t.val / 32) + p.val) s * Wn V c (1024 * (t.val / 8 % 4) + q.val) s)]
  unfold Cert.Spec.Ospec
  refine Finset.sum_congr rfl fun i _ => ?_
  rw [← h0', ← h1']
  unfold Xn Wn
  rw [dif_pos (show (j 0).val < 16384 ∧ i.val < 4096 from ⟨(j 0).isLt, i.isLt⟩),
    dif_pos (show (j 1).val < 4096 ∧ i.val < 4096 from ⟨(j 1).isLt, i.isLt⟩)]
  rfl

/-- What a point at a last slice writes back is its block of the dense layer. -/
theorem flushed_eq (c : Dev nD) (t : Fin cfg1.N) (hf : (cfg1.win 2).flush t = true) :
    (dat1 V c).flushed 2 t = ((cfg1.win 2).blk t).view.read (Elt Ideal) (Cert.Spec.Ospec (V c main_v2) (V c main_v1)) := by
  have h7 := (flush1_2 t).mp hf
  obtain ⟨-, -, -, -, e0, e1⟩ := idx_facts t
  show (cfg1.win 2).cut (grid1.coords t) ((dat1 V c).after 2 t) = _
  rw [after1_2]
  funext y
  rw [View.read_apply]
  refine acc1_last V c t h7 y _ ?_ ?_
  · show win1_2.index t (0 : Fin 2) * 1024 + 1 * (y 0).val = 1024 * (t.val / 32) + (y 0).val
    rw [e0]; omega
  · show win1_2.index t (1 : Fin 2) * 1024 + 1 * (y 1).val = 1024 * (t.val / 8 % 4) + (y 1).val
    rw [e1]; omega

/-- An index of the output array is in point t's block iff each coordinate is in the block's range on its axis. -/
theorem mem_blk (t : Fin cfg1.N) (i : S16384x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v3).slice (win1_2.rect t)).set ↔ _
  rw [View.set_slice_whole, Rect.mem_set_unit]
  exact Iff.rfl

/-- Entry (r, s) of the output lies in block (r / 1024, s / 1024), written back at that block's last slice. -/
theorem cover (i : S16384x4096.Idx) : ∃ t : Fin cfg1.N, (cfg1.win 2).flush t = true ∧ i ∈ ((cfg1.win 2).blk t).view.set := by
  have hi0 : (i 0).val < 16384 := (i 0).isLt
  have hi1 : (i 1).val < 4096 := (i 1).isLt
  let t : Fin cfg1.N := ⟨32 * ((i 0).val / 1024) + 8 * ((i 1).val / 1024) + 7, by rw [N512]; omega⟩
  have htv : t.val = 32 * ((i 0).val / 1024) + 8 * ((i 1).val / 1024) + 7 := rfl
  obtain ⟨-, -, -, -, e0, e1⟩ := idx_facts t
  refine ⟨t, (flush1_2 t).mpr (by rw [htv]; omega), ?_⟩
  rw [mem_blk]
  intro a
  match a with
  | ⟨0, _⟩ => show win1_2.index t (0 : Fin 2) * 1024 ≤ (i 0).val ∧ (i 0).val < win1_2.index t (0 : Fin 2) * 1024 + 1024; rw [e0, htv]; omega
  | ⟨1, _⟩ => show win1_2.index t (1 : Fin 2) * 1024 ≤ (i 1).val ∧ (i 1).val < win1_2.index t (1 : Fin 2) * 1024 + 1024; rw [e1, htv]; omega

/-- After the region's 512 points the output array holds the dense layer of the arrays the region was entered with:
    the flattened X (`main_v2`) and W (`main_v1`). -/
theorem final1 (c : Dev nD) :
    (dat1 (F := Ideal) V c).arrAt 2 cfg1.N = Cert.Spec.Ospec (V c main_v2) (V c main_v1) :=
  (dat1 V c).arrAt_eq_of_cover 2 (Cert.Spec.Ospec (V c main_v2) (V c main_v1)) (fun t hf => flushed_eq V c t hf) cover

end Cert.KernelIdeal.Value1

end
-- ==== Proof.Bridge.lean ====
/-
  The kernel's program around its two pallas_calls: S is recast as a one-row matrix, X is flattened to 16384 rows before
  the dense layer and the result unflattened after it. Reading the three recasts at an index turns the composition of
  the two products into the layer's function of the argument arrays.
-/
import proofs.«162678_j19954418057631_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Spec

open Idealize.ShloMosaic Idealize.ShloMosaic.ValueIdx

/-- The flattened batch at row 2048·b + sq, column i, is X at (b, sq, i): both positions are
    (2048·b + sq)·4096 + i in row-major order. -/
theorem flatX_apply (x : (⟨3, ![8, 2048, 4096]⟩ : Shape).Idx → EReal)
    (h1 : (⟨3, ![8, 2048, 4096]⟩ : Shape).ShapeCasts ⟨2, ![16384, 4096]⟩) (b : Fin 8) (sq : Fin 2048) (i : Fin 4096) :
    shapeCast ⟨2, ![16384, 4096]⟩ x h1 (ix2 (⟨2048 * b.val + sq.val, by omega⟩ : Fin 16384) i) = x (ix3 b sq i) :=
  shapeCast_apply x h1 _ _ (by
    rw [Shape.rowMajor_val_three, Shape.rowMajor_val_two]
    show (b.val * 2048 + sq.val) * 4096 + i.val = (2048 * b.val + sq.val) * 4096 + i.val
    omega)

/-- A 16384-row matrix recast to 8 batches of 2048 rows reads, at (b, sq, o), row 2048·b + sq, column o. -/
theorem unflat_apply (y : (⟨2, ![16384, 4096]⟩ : Shape).Idx → EReal)
    (h3 : (⟨2, ![16384, 4096]⟩ : Shape).ShapeCasts ⟨3, ![8, 2048, 4096]⟩) (b : Fin 8) (sq : Fin 2048) (o : Fin 4096) :
    shapeCast ⟨3, ![8, 2048, 4096]⟩ y h3 (ix3 b sq o) = y (ix2 (⟨2048 * b.val + sq.val, by omega⟩ : Fin 16384) o) :=
  shapeCast_apply y h3 _ _ (by
    rw [Shape.rowMajor_val_three, Shape.rowMajor_val_two]
    show (2048 * b.val + sq.val) * 4096 + o.val = (b.val * 2048 + sq.val) * 4096 + o.val
    omega)

/-- Unflattening the dense layer of the flattened X and the weight reconstructed from U, the recast S and V gives
    the layer's result: row 2048·b + s of the flattened batch is row (b, s) of X. -/
theorem bridge (x : (⟨3, ![8, 2048, 4096]⟩ : Shape).Idx → EReal) (u : (⟨2, ![4096, 256]⟩ : Shape).Idx → EReal)
    (s : (⟨1, ![256]⟩ : Shape).Idx → EReal) (v : (⟨2, ![4096, 256]⟩ : Shape).Idx → EReal)
    (h1 : (⟨3, ![8, 2048, 4096]⟩ : Shape).ShapeCasts ⟨2, ![16384, 4096]⟩) (h2 : (⟨1, ![256]⟩ : Shape).ShapeCasts ⟨2, ![1, 256]⟩)
    (h3 : (⟨2, ![16384, 4096]⟩ : Shape).ShapeCasts ⟨3, ![8, 2048, 4096]⟩) :
    shapeCast ⟨3, ![8, 2048, 4096]⟩ (Ospec (shapeCast ⟨2, ![16384, 4096]⟩ x h1) (Wspec u (shapeCast ⟨2, ![1, 256]⟩ s h2) v)) h3
      = Gfinal x u s v := by
  funext j
  obtain ⟨b, sq, o, rfl⟩ : ∃ (b : Fin 8) (sq : Fin 2048) (o : Fin 4096), j = ix3 b sq o := ⟨j 0, j 1, j 2, eq_ix3 j⟩
  -- the result at (b, sq, o) is the matrix product at row 2048·b + sq, column o
  rw [unflat_apply]
  unfold Ospec Gfinal
  -- term by term over the contracted input feature i
  refine Finset.sum_congr rfl fun i _ => ?_
  show shapeCast ⟨2, ![16384, 4096]⟩ x h1 (ix2 (⟨2048 * b.val + sq.val, by omega⟩ : Fin 16384) i)
      * Wspec u (shapeCast ⟨2, ![1, 256]⟩ s h2) v (ix2 o i)
    = x (ix3 b sq i) * ∑ r : Fin 256, (u (ix2 o r) * s (ix1 r)) * v (ix2 i r)
  rw [flatX_apply]
  refine congrArg (fun t => x (ix3 b sq i) * t) ?_
  unfold Wspec
  -- term by term over the rank index r; the one-row S at (0, r) is S at r
  refine Finset.sum_congr rfl fun r _ => ?_
  show (u (ix2 o r) * shapeCast ⟨2, ![1, 256]⟩ s h2 (ix2 (0 : Fin 1) r)) * v (ix2 i r)
    = (u (ix2 o r) * s (ix1 r)) * v (ix2 i r)
  rw [shapeCast_a_1a_apply]

end Cert.Spec

end
-- ==== Proof.KernelValue.lean ====
/-
  The kernel program's result at the extended reals. Reading the run's fold of buffer contents backwards from the result:
  the result is the unflattened output of the second pallas_call, which is the dense layer of the flattened X and of the
  first pallas_call's output, which is the weight reconstructed from U, the recast S and V; no stage in between writes
  those arrays. Composed, the result is the layer's function of the four argument arrays.
-/
import proofs.«162678_j19954418057631_1_alg».proof.Proof.Run
import proofs.«162678_j19954418057631_1_alg».proof.Proof.Value0
import proofs.«162678_j19954418057631_1_alg».proof.Proof.Value1
import proofs.«162678_j19954418057631_1_alg».proof.Proof.Bridge
import Idealize.ShloMosaic.Lib.StableHlo.Run

set_option maxRecDepth 16384

noncomputable section

namespace Cert.KernelIdeal.KernelValue

open Cert.KernelIdeal Cert.KernelIdeal.Gen Cert.KernelIdeal.Hand
open Idealize.ShloMosaic Idealize.ShloMosaic.TcCoe Idealize.ShloMosaic.StableHlo Idealize.SL.Sem

variable (m : (ℓ : Loc nD τ sig) → Buf (Elt Ideal) ℓ)

/-! ## The host stretches read back -/

/-- The recast S the first region finds. -/
theorem W1_main_v0 (c : Dev nD) :
    (W1 m c (Proc.devRef .tc main_v0) : S1x256.Idx → EReal) = shapeCast S1x256 (m ((c : Thread nD τ).loc main_arg2)) shapeCasts_S256_S1x256 := by
  show StableHlo.after hostOps0 (fun b => m (c, b)) (Proc.devRef .tc main_v0) = _
  after_results
  rfl
/-- The recast leaves U and V as launched. -/
theorem W1_main_arg1 (c : Dev nD) : W1 m c (Proc.devRef .tc main_arg1) = m ((c : Thread nD τ).loc main_arg1) :=
  (StableHlo.after_of_writes_sub hostOps0 _ hostOps0_writes (r := main_arg1) (by decide)).trans rfl
theorem W1_main_arg3 (c : Dev nD) : W1 m c (Proc.devRef .tc main_arg3) = m ((c : Thread nD τ).loc main_arg3) :=
  (StableHlo.after_of_writes_sub hostOps0 _ hostOps0_writes (r := main_arg3) (by decide)).trans rfl

/-- X reaches the flattening as launched: the recast does not write it and it is no array of the first region. -/
theorem W2_main_arg0 (c : Dev nD) : W2 m c (Proc.devRef .tc main_arg0) = m ((c : Thread nD τ).loc main_arg0) :=
  (W2_of_ne m c main_arg0 (by decide)).trans <|
  (StableHlo.after_of_writes_sub hostOps0 _ hostOps0_writes (r := main_arg0) (by decide)).trans rfl

/-- The flattened X the second region finds. -/
theorem W3_main_v2 (c : Dev nD) :
    (W3 m c (Proc.devRef .tc main_v2) : S16384x4096.Idx → EReal)
      = shapeCast S16384x4096 (m ((c : Thread nD τ).loc main_arg0)) shapeCasts_S8x2048x4096_S16384x4096 := by
  rw [← W2_main_arg0 m c]
  show StableHlo.after hostOps1 (W2 m c) (Proc.devRef .tc main_v2) = _
  after_results
  rfl
/-- The flattening does not write W. -/
theorem W3_main_v1 (c : Dev nD) : W3 m c (Proc.devRef .tc main_v1) = W2 m c (Proc.devRef .tc main_v1) :=
  StableHlo.after_of_writes_sub hostOps1 _ hostOps1_writes (r := main_v1) (by decide)

/-- The result is the unflattened output of the second region. -/
theorem W5_main_v4_cast (c : Dev nD) :
    (W5 m c (Proc.devRef .tc main_v4) : S8x2048x4096.Idx → EReal)
      = shapeCast S8x2048x4096 (W4 m c (Proc.devRef .tc main_v3)) shapeCasts_S16384x4096_S8x2048x4096 := by
  show StableHlo.after hostOps2 (W4 m c) (Proc.devRef .tc main_v4) = _
  after_results
  rfl

/-! ## The regions' outputs -/

/-- The first region leaves the reconstructed weight in W. -/
theorem W2_main_v1 (c : Dev nD) :
    (W2 m c (Proc.devRef .tc main_v1) : S4096x4096.Idx → EReal)
      = Cert.Spec.Wspec (m ((c : Thread nD τ).loc main_arg1)) (shapeCast S1x256 (m ((c : Thread nD τ).loc main_arg2)) shapeCasts_S256_S1x256)
          (m ((c : Thread nD τ).loc main_arg3)) := by
  have h := (W2_arr m c 3).trans (Cert.KernelIdeal.Value0.final0 (E1 m) c)
  rw [show (E1 m c main_arg1) = W1 m c (Proc.devRef .tc main_arg1) from rfl, W1_main_arg1 m c,
    show (E1 m c main_arg3) = W1 m c (Proc.devRef .tc main_arg3) from rfl, W1_main_arg3 m c,
    show (E1 m c main_v0) = W1 m c (Proc.devRef .tc main_v0) from rfl, W1_main_v0 m c] at h
  exact h

/-- The second region leaves the dense layer in its output. -/
theorem W4_main_v3 (c : Dev nD) :
    (W4 m c (Proc.devRef .tc main_v3) : S16384x4096.Idx → EReal)
      = Cert.Spec.Ospec (shapeCast S16384x4096 (m ((c : Thread nD τ).loc main_arg0)) shapeCasts_S8x2048x4096_S16384x4096)
          (Cert.Spec.Wspec (m ((c : Thread nD τ).loc main_arg1)) (shapeCast S1x256 (m ((c : Thread nD τ).loc main_arg2)) shapeCasts_S256_S1x256)
            (m ((c : Thread nD τ).loc main_arg3))) := by
  have h := (W4_arr m c 2).trans (Cert.KernelIdeal.Value1.final1 (E3 m) c)
  rw [show (E3 m c main_v2) = W3 m c (Proc.devRef .tc main_v2) from rfl, W3_main_v2 m c,
    show (E3 m c main_v1) = W3 m c (Proc.devRef .tc main_v1) from rfl, W3_main_v1 m c, W2_main_v1 m c] at h
  exact h

/-! ## The result -/

/-- The program's result buffer at the end of the run is the layer's function of the four argument arrays. -/
theorem W5_main_v4 (c : Dev nD) :
    (W5 m c (Proc.devRef .tc main_v4) : S8x2048x4096.Idx → EReal)
      = Cert.Spec.Gfinal (m ((c : Thread nD τ).loc main_arg0)) (m ((c : Thread nD τ).loc main_arg1))
          (m ((c : Thread nD τ).loc main_arg2)) (m ((c : Thread nD τ).loc main_arg3)) := by
  rw [W5_main_v4_cast m c, W4_main_v3 m c]
  exact Cert.Spec.bridge _ _ _ _ _ _ _

/-- The kernel program's run at the extended reals, with its result named. -/
theorem run (ρ : Dev nD → PrngReg) :
    θ_run defs (onTc (τ := τ) (main (F := Ideal))) ⟨m, fun _ => 0, ρ⟩ (fun r => ∀ c : Dev nD,
      r.2.mem ((c.tc : Thread nD τ).loc main_v4) = Cert.Spec.Gfinal (m ((c : Thread nD τ).loc main_arg0)) (m ((c : Thread nD τ).loc main_arg1))
          (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.KernelValue

end
-- ==== Proof.RefValue.lean ====
/-
  The reference's run read at an index: its result is the dense layer of the reconstructed weight,
  out[b, s, o] = Σ_i X[b, s, i] · Σ_r (U[o, r] · S[r]) · V[i, r].
-/
import proofs.«162678_j19954418057631_1_alg».proof.Proof.Gen.ReferenceIdeal.Run
import proofs.«162678_j19954418057631_1_alg».proof.Proof.Gen.ReferenceIdeal.Read
import proofs.«162678_j19954418057631_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result stage, at the extended reals, is the layer's function of the four argument arrays. -/
theorem ref_eq (x0 : (⟨S8x2048x4096, .f32⟩ : BufTy).Contents (Elt Ideal)) (x1 : (⟨S4096x256, .f32⟩ : BufTy).Contents (Elt Ideal))
    (x2 : (⟨S256, .f32⟩ : BufTy).Contents (Elt Ideal)) (x3 : (⟨S4096x256, .f32⟩ : BufTy).Contents (Elt Ideal)) :
    val_main_v5 (F := Ideal) x0 x1 x2 x3 = Cert.Spec.Gfinal x0 x1 x2 x3 := by
  funext i
  obtain ⟨b, s, o, rfl⟩ : ∃ b s o, i = ix3 (n0 := 8) (n1 := 2048) (n2 := 4096) b s o :=
    ⟨i 0, i 1, i 2, eq_ix3 i⟩
  -- the outer product: X at (b, s, k) against W at (o, k)
  have eXl : ∀ k : Fin 4096, lidx_main_v5 (ix3 (n0 := 8) (n1 := 2048) (n2 := 4096) b s o) k
      = ix3 (n0 := 8) (n1 := 2048) (n2 := 4096) b s k := fun k => funext fun a => Fin.ext (by
    match a with
    | ⟨0, _⟩ => rfl
    | ⟨1, _⟩ => rfl
    | ⟨2, _⟩ => rfl)
  have eXr : ∀ k : Fin 4096, ridx_main_v5 (ix3 (n0 := 8) (n1 := 2048) (n2 := 4096) b s o) k
      = ix2 (n0 := 4096) (n1 := 4096) o k := fun k => funext fun a => Fin.ext (by
    match a with
    | ⟨0, _⟩ => rfl
    | ⟨1, _⟩ => rfl)
  -- the inner product: the scaled U at (o, r) against the transposed V at (r, k)
  have eWl : ∀ (k : Fin 4096) (r : Fin 256), lidx_main_v4 (ix2 (n0 := 4096) (n1 := 4096) o k) r
      = ix2 (n0 := 4096) (n1 := 256) o r := fun k r => funext fun a => Fin.ext (by
    match a with
    | ⟨0, _⟩ => rfl
    | ⟨1, _⟩ => rfl)
  have eWr : ∀ (k : Fin 4096) (r : Fin 256), idx_main_v3 (ridx_main_v4 (ix2 (n0 := 4096) (n1 := 4096) o k) r)
      = ix2 (n0 := 4096) (n1 := 256) k r := fun k r => funext fun a => Fin.ext (by
    match a with
    | ⟨0, _⟩ => rfl
    | ⟨1, _⟩ => rfl)
  -- the scale, broadcast along the rows of U, is read at the column alone
  have eS : ∀ r : Fin 256, idx_main_v0 (idx_main_v1 (ix2 (n0 := 4096) (n1 := 256) o r)) = ix1 (n := 256) r :=
    fun r => funext fun a => Fin.ext (by
      match a with
      | ⟨0, _⟩ => rfl)
  rw [val_main_v5_apply]
  show _ = ∑ k : Fin 4096, x0 (ix3 (n0 := 8) (n1 := 2048) (n2 := 4096) b s k)
    * ∑ r : Fin 256, (x1 (ix2 (n0 := 4096) (n1 := 256) o r) * x2 (ix1 (n := 256) r)) * x3 (ix2 (n0 := 4096) (n1 := 256) k r)
  refine Finset.sum_congr rfl fun k _ => ?_
  rw [eXl k, eXr k, val_main_v4_apply]
  refine congrArg (x0 (ix3 (n0 := 8) (n1 := 2048) (n2 := 4096) b s k) * ·) ?_
  refine Finset.sum_congr rfl fun r _ => ?_
  rw [eWl k r, val_main_v3_apply, eWr k r, val_main_v2_apply, val_main_v1_apply, val_main_v0_apply, eS r]
  rfl

end Cert.ReferenceIdeal.RefValue

end
-- ==== Proof.lean ====
/-
  The low-rank layer  out = X · ((U · diag S) Vᵀ)ᵀ  as two pallas_calls against its jnp reference.

  The kernel program reconstructs the weight W[o, i] = Σ_r (U[o, r] · S[r]) · V[i, r] block by block (sixteen 1024×1024
  blocks, each written once), flattens X to 16384 rows, and computes out[m, o] = Σ_i X[m, i] · W[o, i] on 1024×1024 output
  blocks, accumulating eight 512-wide slices of the contracted axis in a scratch buffer it keeps between grid points
  (reset at the first slice, copied out at the last). The reference computes the same two products as whole
  dot_generals. At the extended reals a change of float format is the identity and a matrix product into a zero
  accumulator is the plain finite sum, so both programs end at out[b, s, o] = Σ_i X[b, s, i] · Σ_r (U[o, r] · S[r]) · V[i, r];
  the only algebra between them is regrouping the sum over 4096 as eight sums over 512, which needs no finiteness.

  The frames of the two kernel programs (word-level and idealized) are one text, generic in the float instance: the
  program runs as five segments (recast S, first region, flatten X, second region, unflatten), every unscoped buffer
  followed through them; the second region's invariant carries the accumulator at the fold of the slices so far. The
  reference's frame is its run with the result dropped. The idealization rewrote nothing, so `preserves` is trivial.
-/
import proofs.«162678_j19954418057631_1_alg».proof.Defs
import proofs.«162678_j19954418057631_1_alg».proof.Proof.Gen.Kernel
import proofs.«162678_j19954418057631_1_alg».proof.Proof.Gen.KernelIdeal
import proofs.«162678_j19954418057631_1_alg».proof.Proof.Gen.ReferenceIdeal
import proofs.«162678_j19954418057631_1_alg».proof.Proof.Gen.Pre_finite_inputs
import proofs.«162678_j19954418057631_1_alg».proof.Proof.Gen.ReferenceIdeal.Run
import proofs.«162678_j19954418057631_1_alg».proof.Proof.Gen.ReferenceIdeal.Read
import proofs.«162678_j19954418057631_1_alg».proof.Proof.KRun
import proofs.«162678_j19954418057631_1_alg».proof.Proof.Run
import proofs.«162678_j19954418057631_1_alg».proof.Proof.KernelValue
import proofs.«162678_j19954418057631_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end at the layer's function of the four argument arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
